-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x10000x128 .f32) (main_arg1 : FVec F S1x10000x10000 .f32) (main_arg2 : FVec F S128x128 .f32) (main_arg3 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10000x128 : Shape := ⟨2, ![10000, 128]⟩
abbrev S10000x10000 : Shape := ⟨2, ![10000, 10000]⟩
abbrev S1x128 : Shape := ⟨2, ![1, 128]⟩
abbrev S200x10000 : Shape := ⟨2, ![200, 10000]⟩
abbrev S200x128 : Shape := ⟨2, ![200, 128]⟩

abbrev nBuf : Space → Nat
  | .hbm => 10
  | .vmem => 8
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x10000, .f32⟩
  | .hbm, ⟨6, _⟩ => ⟨S128x128, .f32⟩
  | .hbm, ⟨7, _⟩ => ⟨S1x128, .f32⟩
  | .hbm, ⟨8, _⟩ => ⟨S10000x128, .f32⟩
  | .hbm, ⟨9, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x128, .f32⟩
  | .local _ .vmem, ⟨6, _⟩ => ⟨S200x128, .f32⟩
  | .local _ .vmem, ⟨7, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  shapeCasts_S10000x128_S1x10000x128 : S10000x128.ShapeCasts S1x10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1x1x128 : Shape := ⟨3, ![1, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.GcnSpec.lean ====
/-
  The graph-convolution layer as one function of its four argument arrays, over the extended reals.

  With one batch, `n = 10000` nodes and `128` features in and out:
    projected features   proj seq W k o   = ∑ f, seq[0, k, f] · W[o, f]          (the linear map without bias: seq · Wᵀ)
    the layer            layer … [0, r, o] = (∑ k, adj[0, r, k] · proj seq W k o) + b[o]
  Both programs compute exactly this nesting of sums — the inner sum is formed first and the outer sum runs over
  its values — so no law of the extended reals beyond re-indexing a finite sum is needed to join them, and the
  finiteness of the inputs is never used.
-/
import Idealize.ShloMosaic.Lib.ValueIdx
import Idealize.ShloMosaic.PureOps.Ideal.Laws

noncomputable section

open scoped BigOperators

namespace Cert.Gcn

open Idealize.ShloMosaic Idealize.ShloMosaic.ValueIdx

/-- Node `k`'s projected feature `o`: row `k` of `seq` against row `o` of `W`. -/
def proj (seq : FVec Ideal ⟨3, ![1, 10000, 128]⟩ .f32) (W : FVec Ideal ⟨2, ![128, 128]⟩ .f32)
    (k : Fin 10000) (o : Fin 128) : EReal :=
  ∑ f : Fin 128, seq (ix3 0 k f) * W (ix2 o f)

/-- The layer's output: row `r` of the adjacency against column `o` of the projected features, plus the bias. -/
def layer (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) :
    FVec Ideal ⟨3, ![1, 10000, 128]⟩ .f32 :=
  fun i => (∑ k : Fin 10000, adj (ix3 0 (i 1) k) * proj seq W k (i 2)) + b (ix1 (i 2))

/-- The same layer on the flattened arrays the kernel works on (the batch axis of extent one dropped): row `r`,
    feature `o`. -/
def layer2 (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) :
    FVec Ideal ⟨2, ![10000, 128]⟩ .f32 :=
  fun j => (∑ k : Fin 10000, adj (ix3 0 (j 0) k) * proj seq W k (j 1)) + b (ix1 (j 1))

theorem layer2_apply (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) (r : Fin 10000) (o : Fin 128) :
    layer2 seq adj W b (ix2 r o) = (∑ k : Fin 10000, adj (ix3 0 r k) * proj seq W k o) + b (ix1 o) := rfl

theorem layer_apply (seq : FVec Ideal ⟨3, ![1, 10000, 128]⟩ .f32) (adj : FVec Ideal ⟨3, ![1, 10000, 10000]⟩ .f32)
    (W : FVec Ideal ⟨2, ![128, 128]⟩ .f32) (b : FVec Ideal ⟨1, ![128]⟩ .f32) (i : (⟨3, ![1, 10000, 128]⟩ : Shape).Idx) :
    layer seq adj W b i = layer2 seq adj W b (ix2 (i 1) (i 2)) := rfl

end Cert.Gcn

end
-- ==== Proof.RefValue.lean ====
/-
  The reference computes the layer: its two `dot_general`s are the inner and the outer sum of `Cert.Gcn.layer`, its
  two broadcasts read the bias at the feature coordinate, and the final addition is the layer's.
-/
import proofs.«145952_g34239479284012_cont_8to1_b_1779_4_alg».proof.Proof.Gen.ReferenceIdeal.Read
import proofs.«145952_g34239479284012_cont_8to1_b_1779_4_alg».proof.Proof.GcnSpec

noncomputable section

open scoped BigOperators

namespace Cert.ReferenceIdeal.RefValue

open Cert.ReferenceIdeal Cert.ReferenceIdeal.Read Idealize.ShloMosaic Idealize.ShloMosaic.ValueIdx

/-- The batch axis has one coordinate. -/
theorem batch_zero (i : S1x10000x128.Idx) : (⟨(i 0).val, (i 0).isLt⟩ : Fin 1) = 0 := Subsingleton.elim _ _

/-- The outer product's left operand is read at (0, row, k): the adjacency's row. -/
theorem adj_idx (i : S1x10000x128.Idx) (k : Fin 10000) : lidx_main_v1 i k = ix3 0 (i 1) k :=
  funext fun a => by
    match a with
    | ⟨0, _⟩ => exact batch_zero i
    | ⟨1, _⟩ => rfl
    | ⟨2, _⟩ => rfl

/-- The inner product's left operand, under the outer one's right index, is read at (0, k, f): node `k`'s features. -/
theorem seq_idx (i : S1x10000x128.Idx) (k : Fin 10000) (f : Fin 128) :
    lidx_main_v0 (ridx_main_v1 i k) f = ix3 0 k f :=
  funext fun a => by
    match a with
    | ⟨0, _⟩ => exact batch_zero i
    | ⟨1, _⟩ => rfl
    | ⟨2, _⟩ => rfl

/-- The inner product's right operand is read at (o, f): row `o` of the weight. -/
theorem w_idx (i : S1x10000x128.Idx) (k : Fin 10000) (f : Fin 128) :
    ridx_main_v0 (ridx_main_v1 i k) f = ix2 (i 2) f :=
  funext fun a => by
    match a with
    | ⟨0, _⟩ => rfl
    | ⟨1, _⟩ => rfl

/-- The two broadcasts read the bias at the feature coordinate. -/
theorem b_idx (i : S1x10000x128.Idx) : idx_main_v2 (idx_main_v3 i) = ix1 (i 2) :=
  funext fun a => by
    match a with
    | ⟨0, _⟩ => rfl

/-- The reference's result, as a function of the four arguments, is the layer. -/
theorem ref_is_layer (x0 : FVec Ideal S1x10000x128 .f32) (x1 : FVec Ideal S1x10000x10000 .f32)
    (x2 : FVec Ideal S128x128 .f32) (x3 : FVec Ideal S128 .f32) :
    val_main_v4 (F := Ideal) x0 x1 x2 x3 = Cert.Gcn.layer x0 x1 x2 x3 := by
  funext i
  rw [val_main_v4_apply, val_main_v1_apply, val_main_v3_apply, val_main_v2_apply, b_idx]
  simp only [val_main_v0_apply, adj_idx, seq_idx, w_idx]
  rfl

end Cert.ReferenceIdeal.RefValue

end
-- ==== Proof.KernelPieces.lean ====
/-
  What one run of the kernel body leaves behind, as values.

  At the grid's first point the body forms the projected features from the two whole blocks it is handed, stores them
  into the scratch, reads the scratch back and stores the point's output block; at every later point it stores only the
  output block, from the scratch as the point before left it. Each buffer ends with ONE store that covers it, so its
  contents are that store's payload, and a load of a whole buffer reads the buffer's contents.
-/
import proofs.«145952_g34239479284012_cont_8to1_b_1779_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- First point: the scratch ends holding the projected features of the two whole input blocks. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S1x128 .f32) (x3 : Vec F S200x10000 .f32) :
    sout0_A_0 c i arg1 harg1 arg2 harg2 arg3 harg3 arg4 harg4 arg5 harg5 arg6 harg6 hc0 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg1.read_unread, harg2.read_unread, View.ld_unit_zero (S := S10000x128) origin,
    View.ld_unit_zero (S := S128x128) origin]

/-- First point: the output block is the body's second payload of the adjacency block, the features just stored (read
    back from the scratch) and the bias block. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S1x128 .f32) (x3 : Vec F S200x10000 .f32) :
    out0_A_4 c i arg1 harg1 arg2 harg2 arg3 harg3 arg4 harg4 arg5 harg5 arg6 harg6 hc0 x0 x1 x2 x3 = k0_pay2 x3 (k0_pay1 x0 x1) x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero origin]
  simp only [View.readAt_eq_ld, harg1.read_unread, harg2.read_unread, harg3.read_unread, harg4.read_unread,
    View.readCov_unit_zero (S := S10000x128) _ origin, View.ld_unit_zero (S := S10000x128) origin,
    View.ld_unit_zero (S := S128x128) origin, View.ld_unit_zero (S := S200x10000) origin,
    View.ld_unit_zero (S := S1x128) origin]

/-- Later points: the output block is the same payload of the adjacency block, the scratch as it was found and the
    bias block. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S1x128 .f32) (x3 : Vec F S200x10000 .f32) (xs0 : Vec F S10000x128 .bf16) :
    out0_B_4 c i arg1 harg1 arg2 harg2 arg3 harg3 arg4 harg4 arg5 harg5 arg6 harg6 hc0 x0 x1 x2 x3 xs0 = k0_pay2 x3 xs0 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero origin]
  simp only [View.readAt_eq_ld, harg3.read_unread, harg4.read_unread, harg6.read_unread,
    View.ld_unit_zero (S := S10000x128) origin, View.ld_unit_zero (S := S200x10000) origin,
    View.ld_unit_zero (S := S1x128) origin]

end Cert.KernelIdeal.Pieces

end
-- ==== Proof.KernelPayload.lean ====
/-
  The body's two payloads read at one index, over the extended reals.

  `k0_pay1` is the matrix product of the node features [10000, 128] with the transposed weight [128, 128] into a zero
  accumulator, then a change of float format (the identity on extended reals): entry (n, o) is ∑ f, x[n, f] · w[f, o].
  `k0_pay2` is the matrix product of an adjacency block [200, 10000] (after a change of format) with the stored features
  [10000, 128] into a zero accumulator, plus the bias row broadcast down the block: entry (r, o) is
  (∑ k, a[r, k] · s[k, o]) + b[0, o].
  A product's contraction runs over an index type with one axis; it is re-indexed to the axis' own coordinate.
-/
import proofs.«145952_g34239479284012_cont_8to1_b_1779_4_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The first product's operand indices, axis by axis -/

theorem feat_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem feat_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem feat_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem feat_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The stored features at (n, o): row `n` of the node features against column `o` of the transposed weight. -/
theorem feats_apply (x : Vec Ideal S10000x128 .f32) (w : Vec Ideal S128x128 .f32) (n : Fin 10000) (o : Fin 128) :
    k0_pay1 (F := Ideal) x w (ix2 n o) = ∑ f : Fin 128, x (ix2 n f) * w (ix2 f o) := by
  unfold k0_pay1
  simp only [shapeCast_self]
  show FloatOps.matmul (F := Ideal) (φ₁ := .f32) (φ₂ := .f32) dot_S10000x128_S128x128_S10000x128_1_0_0_1_n_n (some .fp32) x w (constant S10000x128 .f32 0x00000000#32) (ix2 n o) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 n o) ((contrEquiv1 dot_S10000x128_S128x128_S10000x128_1_0_0_1_n_n 128 rfl rfl).symm k) = ix2 n k := funext fun a => Fin.ext (by
    match a with
    | ⟨0, _⟩ => exact feat_lhs_0 _ _
    | ⟨1, _⟩ => exact (feat_lhs_1 _ _).trans hk)
  have er : dot_S10000x128_S128x128_S10000x128_1_0_0_1_n_n.rhsIdx (ix2 n o) ((contrEquiv1 dot_S10000x128_S128x128_S10000x128_1_0_0_1_n_n 128 rfl rfl).symm k) = ix2 k o := funext fun a => Fin.ext (by
    match a with
    | ⟨0, _⟩ => exact (feat_rhs_0 _ _).trans hk
    | ⟨1, _⟩ => exact feat_rhs_1 _ _)
  rw [el, er]

/-! ## The second product's operand indices, axis by axis -/

theorem agg_lhs_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem agg_lhs_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem agg_rhs_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem agg_rhs_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The output block at (r, o): row `r` of the adjacency block against column `o` of the stored features, plus the
    bias at `o`. -/
theorem block_apply (a : Vec Ideal S200x10000 .f32) (s : Vec Ideal S10000x128 .bf16) (b : Vec Ideal S1x128 .f32)
    (r : Fin 200) (o : Fin 128) :
    k0_pay2 (F := Ideal) a s b (ix2 r o) = (∑ k : Fin 10000, a (ix2 r k) * s (ix2 k o)) + b (ix2 0 o) := by
  unfold k0_pay2
  simp only [shapeCast_self]
  show FloatOps.matmul (F := Ideal) (φ₁ := .bf16) (φ₂ := .bf16) dot_S200x10000_S10000x128_S200x128_1_0_0_1_n_n none a s (constant S200x128 .f32 0x00000000#32) (ix2 r o)
      + broadcastTo S200x128 b broadcasts_S1x128_S200x128 (ix2 r o) = _
  rw [Ideal.matmul_constant_zero_apply, ← Equiv.sum_comp (contrEquiv1 dot_S200x10000_S10000x128_S200x128_1_0_0_1_n_n 10000 rfl rfl).symm,
    broadcastTo_apply b broadcasts_S1x128_S200x128 (ix2 r o) (ix2 0 o) (fun d => by
      match d with
      | ⟨0, _⟩ => rfl
      | ⟨1, _⟩ => rfl)]
  refine congrArg (· + b (ix2 0 o)) (Finset.sum_congr rfl fun k _ => ?_)
  have hk := contrEquiv1_symm_val dot_S200x10000_S10000x128_S200x128_1_0_0_1_n_n 10000 rfl rfl k
  have el : dot_S200x10000_S10000x128_S200x128_1_0_0_1_n_n.lhsIdx (ix2 r o) ((contrEquiv1 dot_S200x10000_S10000x128_S200x128_1_0_0_1_n_n 10000 rfl rfl).symm k) = ix2 r k := funext fun d => Fin.ext (by
    match d with
    | ⟨0, _⟩ => exact agg_lhs_0 _ _
    | ⟨1, _⟩ => exact (agg_lhs_1 _ _).trans hk)
  have er : dot_S200x10000_S10000x128_S200x128_1_0_0_1_n_n.rhsIdx (ix2 r o) ((contrEquiv1 dot_S200x10000_S10000x128_S200x128_1_0_0_1_n_n 10000 rfl rfl).symm k) = ix2 k o := funext fun d => Fin.ext (by
    match d with
    | ⟨0, _⟩ => exact (agg_rhs_0 _ _).trans hk
    | ⟨1, _⟩ => exact agg_rhs_1 _ _)
  rw [el, er]

end Cert.KernelIdeal.Payload

end
-- ==== Proof.KernelValue.lean ====
/-
  What the kernel's result array holds after the run, at the ideal instance: the layer of the four argument arrays.

  The region finds the node features flattened to [10000, 128], the adjacency flattened to [10000, 10000], the weight
  transposed and the bias as one row. Three of its windows are their whole arrays at every grid point; the adjacency
  window's block at point `t` is rows 200·t … 200·t + 199. The first point stores the projected features in the scratch
  and no later point writes it, so the scratch holds them at every point (an induction over the points); every point
  writes back rows 200·t … 200·t + 199 of the flattened layer, and these fifty blocks tile the result array. The line after
  the region restores the batch axis.
-/
import proofs.«145952_g34239479284012_cont_8to1_b_1779_4_alg».proof.Proof.KernelPieces
import proofs.«145952_g34239479284012_cont_8to1_b_1779_4_alg».proof.Proof.KernelPayload
import proofs.«145952_g34239479284012_cont_8to1_b_1779_4_alg».proof.Proof.GcnSpec
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen

/-! ## The arrays the region finds, and the windows' blocks — at any instance -/

section Blocks

variable {F : FTy → Type} [FloatOps F]
variable (m : (ℓ : Loc nD τ sig) → Buf (Elt F) ℓ)

/-- The flattened node features, the flattened adjacency, the transposed weight and the bias row, as the region finds them. -/
abbrev seqArr (c : Dev nD) : Vec F S10000x128 .f32 := V m c main_v0
abbrev adjArr (c : Dev nD) : Vec F S10000x10000 .f32 := V m c main_v1
abbrev wtArr (c : Dev nD) : Vec F S128x128 .f32 := V m c main_v2
abbrev biasArr (c : Dev nD) : Vec F S1x128 .f32 := V m c main_v3

/-- The input windows' blocks at a point, at their literal shapes. -/
abbrev seqBlk (c : Dev nD) (t : Fin cfg0.N) : Vec F S10000x128 .f32 := iblk m c 0 t
abbrev wtBlk (c : Dev nD) (t : Fin cfg0.N) : Vec F S128x128 .f32 := iblk m c 1 t
abbrev biasBlk (c : Dev nD) (t : Fin cfg0.N) : Vec F S1x128 .f32 := iblk m c 2 t
abbrev adjBlk (c : Dev nD) (t : Fin cfg0.N) : Vec F S200x10000 .f32 := iblk m c 3 t

/-- The printed index maps over the grid: the first three windows stay at block (0, 0); the adjacency's and the result's
    row block is the point's number. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The node-feature window's block is the whole flattened array, at every point. -/
theorem seqBlk_eq (c : Dev nD) (t : Fin cfg0.N) : seqBlk m c t = seqArr m c := by
  obtain ⟨e0, e1, -⟩ := index_facts t
  funext j
  unfold seqBlk iblk
  rw [View.read_apply]
  show V m c main_v0 _ = V m c main_v0 j
  refine congrArg _ (funext fun a => Fin.ext ?_)
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- The weight window's block is the whole transposed weight. -/
theorem wtBlk_eq (c : Dev nD) (t : Fin cfg0.N) : wtBlk m c t = wtArr m c := by
  obtain ⟨-, -, e0, e1, -⟩ := index_facts t
  funext j
  unfold wtBlk iblk
  rw [View.read_apply]
  show V m c main_v2 _ = V m c main_v2 j
  refine congrArg _ (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The bias window's block is the whole bias row. -/
theorem biasBlk_eq (c : Dev nD) (t : Fin cfg0.N) : biasBlk m c t = biasArr m c := by
  obtain ⟨-, -, -, -, e0, e1, -⟩ := index_facts t
  funext j
  unfold biasBlk iblk
  rw [View.read_apply]
  show V m c main_v3 _ = V m c main_v3 j
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- Row `r` of the adjacency block at point `t` is row 200·t + r of the flattened adjacency. -/
theorem adjBlk_apply (c : Dev nD) (t : Fin cfg0.N) (r : Fin 200) (k : Fin 10000) (R : Fin 10000)
    (hR : R.val = 200 * t.val + r.val) : adjBlk m c t (ix2 r k) = adjArr m c (ix2 R k) := by
  obtain ⟨-, -, -, -, -, -, e0, e1, -⟩ := index_facts t
  unfold adjBlk iblk
  rw [View.read_apply]
  show V m c main_v1 _ = V m c main_v1 (ix2 R k)
  refine congrArg _ (funext fun a => Fin.ext ?_)
  match a with
  | ⟨0, _⟩ => show win0_3.index t (0 : Fin 2) * 200 + 1 * r.val = R.val; rw [e0, hR]; omega
  | ⟨1, _⟩ => show win0_3.index t (1 : Fin 2) * 10000 + 1 * k.val = k.val; rw [e1]; omega

/-- The four host lines before the region: two reshapes that drop the batch axis, the transpose, the bias as a row. -/
theorem seqArr_eq (c : Dev nD) :
    seqArr m c = shapeCast S10000x128 (m ((c : Thread nD τ).loc main_arg0)) shapeCasts_S1x10000x128_S10000x128 := by
  show StableHlo.after hostOps0 (fun b => m (c, b)) (Proc.devRef .tc main_v0) = _
  after_results; rfl
theorem adjArr_eq (c : Dev nD) :
    adjArr m c = shapeCast S10000x10000 (m ((c : Thread nD τ).loc main_arg1)) shapeCasts_S1x10000x10000_S10000x10000 := by
  show StableHlo.after hostOps0 (fun b => m (c, b)) (Proc.devRef .tc main_v1) = _
  after_results; rfl
theorem wtArr_eq (c : Dev nD) :
    wtArr m c = transpose S128x128 [1, 0] (m ((c : Thread nD τ).loc main_arg2)) transposes_S128x128_S128x128_1_0 := by
  show StableHlo.after hostOps0 (fun b => m (c, b)) (Proc.devRef .tc main_v2) = _
  after_results
theorem biasArr_eq (c : Dev nD) :
    biasArr m c = shapeCast S1x128 (m ((c : Thread nD τ).loc main_arg3)) shapeCasts_S128_S1x128 := by
  show StableHlo.after hostOps0 (fun b => m (c, b)) (Proc.devRef .tc main_v3) = _
  after_results; rfl

/-- The projected features the first point stores in the scratch. -/
abbrev feats (c : Dev nD) : Vec F S10000x128 .bf16 := k0_pay1 (seqArr m c) (wtArr m c)

/-- THE CARRIED SCRATCH: after every point it holds the projected features — stored at the first point, found and left
    in place at every later one. -/
theorem carried (c : Dev nD) : ∀ (n : ℕ) (h : n < cfg0.N), (outsAt0 m c n h).2 = feats m c
  | 0, h => by
    rw [outsAt0_A m c ⟨0, h⟩ rfl]
    dsimp only
    rw [Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)]
    show k0_pay1 (seqBlk m c ⟨0, h⟩) (wtBlk m c ⟨0, h⟩) = _
    rw [seqBlk_eq, wtBlk_eq]
  | n + 1, h => by
    have hN : cfg0.N = 50 := N_0
    have hB : ¬(⟨n + 1, h⟩ : Fin cfg0.N).val % 50 = 0 := by dsimp only; omega
    rw [outsAt0_B m c ⟨n + 1, h⟩ hB]
    dsimp only
    unfold sout0_B_0
    exact carried c n _

/-- WHAT EACH POINT LEAVES IN THE OUTPUT'S STAGING BUFFER: the second payload of the point's adjacency block, the
    projected features and the bias row. -/
theorem out_at (c : Dev nD) (t : Fin cfg0.N) :
    (outsAt0 m c t.val t.isLt).1 = k0_pay2 (adjBlk m c t) (feats m c) (biasArr m c) := by
  by_cases h0 : t.val % 50 = 0
  · rw [outsAt0_A m c t h0]
    dsimp only
    rw [Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    show k0_pay2 (adjBlk m c t) (k0_pay1 (seqBlk m c t) (wtBlk m c t)) (biasBlk m c t) = _
    rw [seqBlk_eq, wtBlk_eq, biasBlk_eq]
  · rw [outsAt0_B m c t h0]
    dsimp only
    rw [Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2]
    show k0_pay2 (adjBlk m c t) (outsAt0 m c (t.val - 1) _).2 (biasBlk m c t) = _
    rw [carried, biasBlk_eq]

end Blocks

/-! ## At the ideal instance: the values -/

section Ideal

variable (m : (ℓ : Loc nD τ sig) → Buf (Elt Ideal) ℓ) (ρ : Dev nD → PrngReg)

/-- The flattened node features at (n, f) are the features at (0, n, f). -/
theorem seqArr_apply (c : Dev nD) (n : Fin 10000) (f : Fin 128) :
    seqArr m c (ix2 n f) = (m ((c : Thread nD τ).loc main_arg0)) (ix3 0 n f) := by
  rw [seqArr_eq]
  refine shapeCast_apply _ _ (ix2 n f) (ix3 0 n f) ?_
  rw [Shape.rowMajor_val_three, Shape.rowMajor_val_two]
  show ((0 : Fin 1).val * 10000 + n.val) * 128 + f.val = n.val * 128 + f.val
  simp

/-- The flattened adjacency at (r, k) is the adjacency at (0, r, k). -/
theorem adjArr_apply (c : Dev nD) (r k : Fin 10000) :
    adjArr m c (ix2 r k) = (m ((c : Thread nD τ).loc main_arg1)) (ix3 0 r k) := by
  rw [adjArr_eq]
  refine shapeCast_apply _ _ (ix2 r k) (ix3 0 r k) ?_
  rw [Shape.rowMajor_val_three, Shape.rowMajor_val_two]
  show ((0 : Fin 1).val * 10000 + r.val) * 10000 + k.val = r.val * 10000 + k.val
  simp

/-- The transposed weight at (f, o) is the weight at (o, f). -/
theorem wtArr_apply (c : Dev nD) (f o : Fin 128) :
    wtArr m c (ix2 f o) = (m ((c : Thread nD τ).loc main_arg2)) (ix2 o f) := by
  rw [wtArr_eq]
  refine transpose_apply _ _ _ (ix2 f o) (ix2 o f) (fun b => ?_)
  match b with
  | ⟨0, _⟩ => rfl
  | ⟨1, _⟩ => rfl

/-- The bias row at (0, o) is the bias at o. -/
theorem biasArr_apply (c : Dev nD) (o : Fin 128) :
    biasArr m c (ix2 0 o) = (m ((c : Thread nD τ).loc main_arg3)) (ix1 o) := by
  rw [biasArr_eq]
  refine shapeCast_apply _ _ (ix2 0 o) (ix1 o) ?_
  rw [Shape.rowMajor_val_one, Shape.rowMajor_val_two]
  show o.val = (0 : Fin 1).val * 128 + o.val
  simp

/-- The scratch at (k, o) is node `k`'s projected feature `o`. -/
theorem feats_apply (c : Dev nD) (k : Fin 10000) (o : Fin 128) :
    feats m c (ix2 k o) = Cert.Gcn.proj (m ((c : Thread nD τ).loc main_arg0)) (m ((c : Thread nD τ).loc main_arg2)) k o := by
  unfold feats
  rw [Payload.feats_apply]
  unfold Cert.Gcn.proj
  refine Finset.sum_congr rfl fun f _ => ?_
  rw [seqArr_apply, wtArr_apply]

/-- The flattened layer of the arguments: what the result array of the region is to hold. -/
abbrev flat (c : Dev nD) : Buf (Elt Ideal) ((c : Thread nD τ).loc main_v4) :=
  Cert.Gcn.layer2 (m ((c : Thread nD τ).loc main_arg0)) (m ((c : Thread nD τ).loc main_arg1)) (m ((c : Thread nD τ).loc main_arg2)) (m ((c : Thread nD τ).loc main_arg3))

/-- The block point `t` leaves, at (r, o), is the flattened layer at row 200·t + r. -/
theorem block_value (c : Dev nD) (t : Fin cfg0.N) (r : Fin 200) (o : Fin 128) (R : Fin 10000)
    (hR : R.val = 200 * t.val + r.val) :
    k0_pay2 (F := Ideal) (adjBlk m c t) (feats m c) (biasArr m c) (ix2 r o) = flat m c (ix2 R o) := by
  rw [Payload.block_apply, biasArr_apply]
  show _ = Cert.Gcn.layer2 (m ((c : Thread nD τ).loc main_arg0)) (m ((c : Thread nD τ).loc main_arg1)) (m ((c : Thread nD τ).loc main_arg2)) (m ((c : Thread nD τ).loc main_arg3)) (ix2 R o)
  rw [Cert.Gcn.layer2_apply]
  refine congrArg (· + _) (Finset.sum_congr rfl fun k _ => ?_)
  rw [adjBlk_apply m c t r k R hR, adjArr_apply, feats_apply]

/-- WHAT POINT `t` WRITES BACK is block `t` of the flattened layer. -/
theorem flushed_eq (c : Dev nD) (t : Fin cfg0.N) :
    (dats m 0 c).flushed 4 t = ((cfg0.win 4).blk t).view.read (Elt Ideal) (flat m c) := by
  obtain ⟨-, -, -, -, -, -, -, -, e0, e1⟩ := index_facts t
  have hN : t.val < 50 := lt_of_lt_of_eq t.isLt (show cfg0.N = 50 from N_0)
  show (cfg0.win 4).cut (grid0.coords t) ((dats m 0 c).after 4 t) = _
  rw [after0_4, out_at]
  funext y
  rw [View.read_apply]
  obtain ⟨r, o, rfl⟩ : ∃ (r : Fin 200) (o : Fin 128), y = ix2 r o := ⟨y 0, y 1, eq_ix2 y⟩
  have hr : r.val < 200 := r.isLt
  show k0_pay2 (F := Ideal) (adjBlk m c t) (feats m c) (biasArr m c) (ix2 r o) = flat m c (((cfg0.win 4).blk t).view.emb (ix2 r o))
  rw [block_value m c t r o ⟨200 * t.val + r.val, by omega⟩ rfl]
  refine congrArg _ (funext fun a => Fin.ext ?_)
  match a with
  | ⟨0, _⟩ => show 200 * t.val + r.val = win0_4.index t (0 : Fin 2) * 200 + 1 * r.val; rw [e0]; omega
  | ⟨1, _⟩ => show o.val = win0_4.index t (1 : Fin 2) * 128 + 1 * o.val; rw [e1]; omega

/-- An index of the result array is in point `t`'s block iff each coordinate is in the block's range on its axis. -/
theorem mem_block (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v4).slice (win0_4.rect t)).set ↔ _
  rw [View.set_slice_whole, Rect.mem_set_unit]
  exact Iff.rfl

/-- The fifty blocks tile the result array: row `i₀` is in the block of point `i₀ / 200`. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  let t : Fin cfg0.N := ⟨(i 0).val / 200, by rw [hN]; omega⟩
  obtain ⟨-, -, -, -, -, -, -, -, e0, e1⟩ := index_facts t
  have ht : t.val = (i 0).val / 200 := rfl
  refine ⟨t, flush0_4 t, ?_⟩
  rw [mem_block]
  intro a
  match a with
  | ⟨0, _⟩ => show win0_4.index t (0 : Fin 2) * 200 ≤ (i 0).val ∧ (i 0).val < win0_4.index t (0 : Fin 2) * 200 + 200; rw [e0, ht]; omega
  | ⟨1, _⟩ => show win0_4.index t (1 : Fin 2) * 128 ≤ (i 1).val ∧ (i 1).val < win0_4.index t (1 : Fin 2) * 128 + 128; rw [e1]; omega

/-- So the region's result array ends holding the flattened layer. -/
theorem final (c : Dev nD) : (dats m 0 c).arrAt 4 cfg0.N = flat m c :=
  (dats m 0 c).arrAt_eq_of_cover 4 (flat m c) (fun t _ => flushed_eq m c t) covered

/-- The line after the region restores the batch axis: the program's result is the layer. -/
theorem result_eq (c : Dev nD) :
    Pipeline.afterTail₀ cfgs (dats m) 0 (V0 m) [hostOps1] c main_v5 = Cert.Gcn.layer (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v5) = _
  after_results
  rw [(Pipeline.withArrays_arr spec0 launch0.win.arr_inj c _ _ 4).trans (final m c)]
  funext i
  obtain ⟨z, r, o, rfl⟩ : ∃ (z : Fin 1) (r : Fin 10000) (o : Fin 128), i = ix3 z r o := ⟨i 0, i 1, i 2, eq_ix3 i⟩
  rw [Cert.Gcn.layer_apply]
  refine shapeCast_apply _ _ (ix3 z r o) (ix2 r o) ?_
  rw [Shape.rowMajor_val_three, Shape.rowMajor_val_two]
  show r.val * 128 + o.val = (z.val * 10000 + r.val) * 128 + o.val
  have hz : z.val = 0 := by have := z.isLt; omega
  rw [hz]; simp

/-- THE RUN, READ: every weakly fair execution terminates with the result at the layer of the argument arrays and the
    arguments unchanged. -/
theorem run : θ_run defs (onTc (τ := τ) (main (F := Ideal))) ⟨m, fun _ => 0, ρ⟩ fun r => ∀ c : Dev nD,
      r.2.mem ((c.tc : Thread nD τ).loc main_v5) = Cert.Gcn.layer (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Ideal

end Cert.KernelIdeal.Run

end
-- ==== Proof.lean ====
/-
  A graph-convolution layer, out = adj · (seq · Wᵀ) + b, computed by one kernel over fifty row blocks of the
  adjacency, against its two-einsum reference.

  The kernel forms the projected features seq · Wᵀ once, at the first grid point, into a scratch that every later point
  reads; each point multiplies its 200 rows of the adjacency with the scratch and adds the bias row. The reference forms
  the same projected features with one contraction, the same row-by-column sums with a second, and adds the broadcast
  bias. Over the extended reals both are
      out[0, r, o] = (∑ k, adj[0, r, k] · (∑ f, seq[0, k, f] · W[o, f])) + b[o]
  with the sums nested the same way, so the two results are equal by re-indexing finite sums alone: the inputs'
  finiteness is not used, and the changes of float format inside the kernel are identities there.

  The three frames are the generated frame runs (the reference's is its generated run with the result dropped); the
  idealization rewrote nothing, so `preserves` has nothing to state; `algebraic` puts the kernel's run
  (`Cert.KernelIdeal.Run.run`) beside the reference's, both ending at `Cert.Gcn.layer` of arguments that agree.
-/
import proofs.«145952_g34239479284012_cont_8to1_b_1779_4_alg».proof.Defs
import proofs.«145952_g34239479284012_cont_8to1_b_1779_4_alg».proof.Proof.Gen.Kernel
import proofs.«145952_g34239479284012_cont_8to1_b_1779_4_alg».proof.Proof.Gen.Kernel.Skeleton
import proofs.«145952_g34239479284012_cont_8to1_b_1779_4_alg».proof.Proof.Gen.Kernel.Launch
import proofs.«145952_g34239479284012_cont_8to1_b_1779_4_alg».proof.Proof.Gen.Kernel.Points
import proofs.«145952_g34239479284012_cont_8to1_b_1779_4_alg».proof.Proof.Gen.Kernel.Frame
import proofs.«145952_g34239479284012_cont_8to1_b_1779_4_alg».proof.Proof.Gen.KernelIdeal
import proofs.«145952_g34239479284012_cont_8to1_b_1779_4_alg».proof.Proof.Gen.KernelIdeal.Skeleton
import proofs.«145952_g34239479284012_cont_8to1_b_1779_4_alg».proof.Proof.Gen.KernelIdeal.Launch
import proofs.«145952_g34239479284012_cont_8to1_b_1779_4_alg».proof.Proof.Gen.KernelIdeal.Points
import proofs.«145952_g34239479284012_cont_8to1_b_1779_4_alg».proof.Proof.Gen.KernelIdeal.Frame
import proofs.«145952_g34239479284012_cont_8to1_b_1779_4_alg».proof.Proof.Gen.ReferenceIdeal
import proofs.«145952_g34239479284012_cont_8to1_b_1779_4_alg».proof.Proof.Gen.ReferenceIdeal.Run
import proofs.«145952_g34239479284012_cont_8to1_b_1779_4_alg».proof.Proof.Gen.ReferenceIdeal.Read
import proofs.«145952_g34239479284012_cont_8to1_b_1779_4_alg».proof.Proof.Gen.Pre_finite_inputs
import proofs.«145952_g34239479284012_cont_8to1_b_1779_4_alg».proof.Proof.GcnSpec
import proofs.«145952_g34239479284012_cont_8to1_b_1779_4_alg».proof.Proof.RefValue
import proofs.«145952_g34239479284012_cont_8to1_b_1779_4_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end at the layer of their argument arrays, and the arguments agree. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.ref_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
